-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S3x768x768 : Shape := ⟨3, ![3, 768, 768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S3x768x768 : S_.BroadcastsInDim S3x768x768 (![] : Fin 0 → Fin S3x768x768.rank)
  reducesTo_S3x768x768_S_d0_1_2 : S3x768x768.ReducesTo [0, 1, 2] S_

variable [Facts]

def fn {F : FTy → Type} [FloatOps F] (main_arg0 : FVec F S8x2048x768 .f32) (main_arg1 : FVec F S3x768x768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S3x768x768 .f32 := Host.absf main_arg1
  let main_cst_0 : FVec F S_ .f32 := constant S_ .f32 0x7F800000#32
  let main_v5 : FVec F S3x768x768 .f32 := broadcastInDim S3x768x768 ![] bcast_S_S3x768x768 main_cst_0
  let main_v6 : IVec S3x768x768 1 := cmpf .olt main_v4 main_v5
  let main_c_1 : IVec S_ 1 := constantI S_ 1 1#1
  let main_v7 : IVec S_ 1 := (fun x v => Host.reduce IntOp.andi x v reducesTo_S3x768x768_S_d0_1_2 h_S_) main_v6 main_c_1
  let main_v8 : IVec S_ 1 := andi main_v3 main_v7
  main_v8
-- ==== Kernel.lean ====
abbrev S8x2048x768 : Shape := ⟨3, ![8, 2048, 768]⟩
abbrev S3x768x768 : Shape := ⟨3, ![3, 768, 768]⟩
abbrev S1x2048x768 : Shape := ⟨3, ![1, 2048, 768]⟩
abbrev S1x512x768 : Shape := ⟨3, ![1, 512, 768]⟩
abbrev S2048x768 : Shape := ⟨2, ![2048, 768]⟩
abbrev S1x768x768 : Shape := ⟨3, ![1, 768, 768]⟩
abbrev S768x768 : Shape := ⟨2, ![768, 768]⟩
abbrev S512x768 : Shape := ⟨2, ![512, 768]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8x2048x768, .f32⟩
  | .hbm, ⟨1, _⟩ => ⟨S3x768x768, .f32⟩
  | .hbm, ⟨2, _⟩ => ⟨S8x2048x768, .bf16⟩
  | .hbm, ⟨3, _⟩ => ⟨S3x768x768, .bf16⟩
  | .hbm, ⟨4, _⟩ => ⟨S8x2048x768, .f32⟩
  | .local _ .vmem, ⟨0, _⟩ => ⟨S1x2048x768, .bf16⟩
  | .local _ .vmem, ⟨1, _⟩ => ⟨S1x2048x768, .bf16⟩
  | .local _ .vmem, ⟨2, _⟩ => ⟨S3x768x768, .bf16⟩
  | .local _ .vmem, ⟨3, _⟩ => ⟨S1x512x768, .f32⟩
  | .local _ .vmem, ⟨4, _⟩ => ⟨S1x512x768, .f32⟩
  | .local _ .vmem, ⟨5, _⟩ => ⟨S2048x768, .bf16⟩
  | .local _ .vmem, ⟨6, _⟩ => ⟨S2048x768, .bf16⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S3x768x768_S1x768x768_1_0_0 : ∀ a, (![1, 0, 0] : Fin 3 → Nat) a + S1x768x768.size a ≤ S3x768x768.size a
  h_S1x768x768 : 0 < S1x768x768.numel
  shapeCasts_S1x768x768_S768x768 : S1x768x768.ShapeCasts S768x768
  inb_S3x768x768_S1x768x768_2_0_0 : ∀ a, (![2, 0, 0] : Fin 3 → Nat) a + S1x768x768.size a ≤ S3x768x768.size a
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  packedbf16_S2048x768_S2048x768_0_0 : (Rect.unit (s := S2048x768) ![0, 0] S2048x768.size inb_S2048x768_S2048x768_0_0).PackedRows (EltTy.packing .bf16)
  h_S1x512x768 : 0 < S1x512x768.numel
  shapeCasts_S1x512x768_S512x768 : S1x512x768.ShapeCasts S512x768
  inb_S3x768x768_S1x768x768_0_0_0 : ∀ a, (![0, 0, 0] : Fin 3 → Nat) a + S1x768x768.size a ≤ S3x768x768.size a
  reduces_S512x2048_S512 : S512x2048.Reduces [1] S512
  shapeCasts_S512_S512x1 : S512.ShapeCasts S512x1
  broadcasts_S512x1_S512x2048 : S512x1.Broadcasts S512x2048
  broadcasts_S512x1_S512x768 : S512x1.Broadcasts S512x768
  inb_S1x512x768_S1x512x768_0_0_0 : ∀ a, (![0, 0, 0] : Fin 3 → Nat) a + S1x512x768.size a ≤ S1x512x768.size a
  shapeCasts_S512x768_S1x512x768 : S512x768.ShapeCasts S1x512x768
  dot_S2048x768_S768x768_S2048x768_1_0_0_1_n_n_wf : DotDims.WF S2048x768 S768x768 S2048x768 [1] [0] [0] [1] [] []
  dot_S512x768_S768x768_S512x768_1_0_0_1_n_n_wf : DotDims.WF S512x768 S768x768 S512x768 [1] [0] [0] [1] [] []
  dot_S512x768_S2048x768_S512x2048_1_1_0_0_n_n_wf : DotDims.WF S512x768 S2048x768 S512x2048 [1] [1] [0] [0] [] []
  dot_S512x2048_S2048x768_S512x768_1_0_0_1_n_n_wf : DotDims.WF S512x2048 S2048x768 S512x768 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x768.size a ≤ S1x2048x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S8x2048x768.size a
  hwx0_0 : ∀ i : grid0.Coords, EltTy.bits .bf16 = 32 ∨ (Rect.block (s := S8x2048x768) S1x2048x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x768x768.size a ≤ S3x768x768.size a
  hwx0_1 : ∀ i : grid0.Coords, EltTy.bits .bf16 = 32 ∨ (Rect.block (s := S3x768x768) S3x768x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x768.size a ≤ S8x2048x768.size a
  hwx0_2 : ∀ i : grid0.Coords, EltTy.bits .f32 = 32 ∨ (Rect.block (s := S8x2048x768) S1x512x768.size (cc0_transform_2 i) (hinb0_2 i)).WholeWords (EltTy.packing .f32)

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x768_S2048x768_S512x2048_1_1_0_0_n_n : DotDims S512x768 S2048x768 S512x2048 where
  lhsContracting := [1]
  rhsContracting := [1]
  lhsNonContracting := [0]
  rhsNonContracting := [0]
  lhsBatch := []
  rhsBatch := []
  wf := dot_S512x768_S2048x768_S512x2048_1_1_0_0_n_n_wf
def dot_S512x2048_S2048x768_S512x768_1_0_0_1_n_n : DotDims S512x2048 S2048x768 S512x768 where
  lhsContracting := [1]
  rhsContracting := [0]
  lhsNonContracting := [0]
  rhsNonContracting := [1]
  lhsBatch := []
  rhsBatch := []
  wf := dot_S512x2048_S2048x768_S512x768_1_0_0_1_n_n_wf

abbrev win0_0 : Pipeline.Window sig grid0 :=
  Pipeline.Window.ofSpec (Memref.whole main_v0) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S3x768x768 : Shape := ⟨3, ![3, 768, 768]⟩
abbrev S1x768x768 : Shape := ⟨3, ![1, 768, 768]⟩
abbrev S768x768 : Shape := ⟨2, ![768, 768]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S3x768x768, .f32⟩
  | .hbm, ⟨2, _⟩ => ⟨S1x768x768, .f32⟩
  | .hbm, ⟨3, _⟩ => ⟨S768x768, .f32⟩
  | .hbm, ⟨4, _⟩ => ⟨S8x2048x768, .f32⟩
  | .hbm, ⟨5, _⟩ => ⟨S1x768x768, .f32⟩
  | .hbm, ⟨6, _⟩ => ⟨S768x768, .f32⟩
  | .hbm, ⟨7, _⟩ => ⟨S8x2048x768, .f32⟩
  | .hbm, ⟨8, _⟩ => ⟨S1x768x768, .f32⟩
  | .hbm, ⟨9, _⟩ => ⟨S768x768, .f32⟩
  | .hbm, ⟨10, _⟩ => ⟨S8x2048x768, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  slices_S3x768x768_S1x768x768_0_0_0 : S3x768x768.Slices ![0, 0, 0] S1x768x768
  shapeCasts_S1x768x768_S768x768 : S1x768x768.ShapeCasts S768x768
  slices_S3x768x768_S1x768x768_1_0_0 : S3x768x768.Slices ![1, 0, 0] S1x768x768
  slices_S3x768x768_S1x768x768_2_0_0 : S3x768x768.Slices ![2, 0, 0] S1x768x768
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x768_S768x768_S8x2048x768_2_0_01_1_n_n_wf : DotDims.WF S8x2048x768 S768x768 S8x2048x768 [2] [0] [0, 1] [1] [] []
  dot_S8x2048x768_S8x2048x768_S8x2048x2048_2_2_1_1_0_0_wf : DotDims.WF S8x2048x768 S8x2048x768 S8x2048x2048 [2] [2] [1] [1] [0] [0]
  dot_S8x2048x2048_S8x2048x768_S8x2048x768_2_1_1_2_0_0_wf : DotDims.WF S8x2048x2048 S8x2048x768 S8x2048x768 [2] [1] [1] [2] [0] [0]

variable [Facts₀]

def dot_S8x2048x768_S768x768_S8x2048x768_2_0_01_1_n_n : DotDims S8x2048x768 S768x768 S8x2048x768 where
  lhsContracting := [2]
  rhsContracting := [0]
  lhsNonContracting := [0, 1]
  rhsNonContracting := [1]
  lhsBatch := []
  rhsBatch := []
  wf := dot_S8x2048x768_S768x768_S8x2048x768_2_0_01_1_n_n_wf
def dot_S8x2048x768_S8x2048x768_S8x2048x2048_2_2_1_1_0_0 : DotDims S8x2048x768 S8x2048x768 S8x2048x2048 where
  lhsContracting := [2]
  rhsContracting := [2]
  lhsNonContracting := [1]
  rhsNonContracting := [1]
  lhsBatch := [0]
  rhsBatch := [0]
  wf := dot_S8x2048x768_S8x2048x768_S8x2048x2048_2_2_1_1_0_0_wf
def dot_S8x2048x2048_S8x2048x768_S8x2048x768_2_1_1_2_0_0 : DotDims S8x2048x2048 S8x2048x768 S8x2048x768 where
  lhsContracting := [2]
  rhsContracting := [1]
  lhsNonContracting := [1]
  rhsNonContracting := [2]
  lhsBatch := [0]
  rhsBatch := [0]
  wf := dot_S8x2048x2048_S8x2048x768_S8x2048x768_2_1_1_2_0_0_wf

class Facts : Prop extends Facts₀ where

variable [Facts]
-- ==== Proof.AttnSpec.lean ====
/-
  Scaled dot-product attention with one projection triple, as a function on extended reals.

  For one batch entry with rows x_0 … x_{n-1} (each a vector of length d) and three d × o matrices W₀, W₁, W₂:
    Q = x W₀,  K = x W₁,  V = x W₂           (row by row: `proj`)
    s_k = (Σ_j Q_j K_{k j}) · (1/8)            (one query row against every key row: `score`)
    m   = max_k s_k  (the fold of max from −∞: `rowMax`)
    e_k = exp (s_k − m)                        (`expo`),   l = Σ_k e_k   (`denom`)
  and the result row is either (Σ_k e_k V_{k c}) / l  (normalise after the product: `attnK`)
  or Σ_k (e_k / l) V_{k c}  (normalise the weights first: `attnR`).  The two agree when everything is a real number
  (the law is in the module that proves it); here are the definitions only, over any extents.
-/
import Idealize.ShloMosaic.PureOps.Ideal.Laws
import Idealize.ShloMosaic.Lib.ValueIdx

noncomputable section

namespace Cert.Attn

open Idealize.ShloMosaic Idealize.ShloMosaic.ValueIdx

/-- The scale 1/8, as the f32 word both programs carry. -/
abbrev c8 : EReal := Ideal.ofBits .f32 0x3E000000#32

/-- One entry of a row-times-matrix product: Σ_t a_t · w_{t j}. -/
def proj {d o : ℕ} (a : Fin d → EReal) (w : Fin d → Fin o → EReal) (j : Fin o) : EReal :=
  ∑ t : Fin d, a t * w t j

/-- The scaled score of a query row `q` against key row `k`. -/
def score {n o : ℕ} (q : Fin o → EReal) (K : Fin n → Fin o → EReal) (k : Fin n) : EReal :=
  (∑ j : Fin o, q j * K k j) * c8

/-- The largest score of a row, as the fold of `max` from −∞. -/
def rowMax {n : ℕ} (s : Fin n → EReal) : EReal := (Finset.univ : Finset (Fin n)).fold max ⊥ s

/-- The shifted exponential of score `k`. -/
def expo {n : ℕ} (s : Fin n → EReal) (k : Fin n) : EReal := Ideal.exp (s k - rowMax s)

/-- The normaliser: the sum of the shifted exponentials. -/
def denom {n : ℕ} (s : Fin n → EReal) : EReal := ∑ k : Fin n, expo s k

/-- Normalise AFTER the weighted sum of the value rows. -/
def attnK {n o : ℕ} (s : Fin n → EReal) (V : Fin n → Fin o → EReal) (c : Fin o) : EReal :=
  Ideal.div (∑ k : Fin n, expo s k * V k c) (denom s)

/-- Normalise the weights, then take the weighted sum of the value rows. -/
def attnR {n o : ℕ} (s : Fin n → EReal) (V : Fin n → Fin o → EReal) (c : Fin o) : EReal :=
  ∑ k : Fin n, Ideal.div (expo s k) (denom s) * V k c

/-! ## The two whole-array functions, at the shapes of this problem -/

abbrev SX : Shape := ⟨3, ![8, 2048, 768]⟩
abbrev SW : Shape := ⟨3, ![3, 768, 768]⟩

/-- Row `r` of batch `b` of the input. -/
def xrow (X : SX.Idx → EReal) (b : Fin 8) (r : Fin 2048) : Fin 768 → EReal := fun t => X (ix3 b r t)

/-- Matrix `p` of the weight triple. -/
def wmat (W : SW.Idx → EReal) (p : Fin 3) : Fin 768 → Fin 768 → EReal := fun t j => W (ix3 p t j)

/-- The scores of query row `q` of batch `b`. -/
def scores (X : SX.Idx → EReal) (W : SW.Idx → EReal) (b : Fin 8) (q : Fin 2048) : Fin 2048 → EReal :=
  score (proj (xrow X b q) (wmat W 0)) (fun k => proj (xrow X b k) (wmat W 1))

/-- The value rows of batch `b`. -/
def values (X : SX.Idx → EReal) (W : SW.Idx → EReal) (b : Fin 8) : Fin 2048 → Fin 768 → EReal :=
  fun k => proj (xrow X b k) (wmat W 2)

/-- The result at (b, q, c), normalising after the product. -/
def outK (X : SX.Idx → EReal) (W : SW.Idx → EReal) (b : Fin 8) (q : Fin 2048) (c : Fin 768) : EReal :=
  attnK (scores X W b q) (values X W b) c

/-- The result at (b, q, c), normalising the weights first. -/
def outR (X : SX.Idx → EReal) (W : SW.Idx → EReal) (b : Fin 8) (q : Fin 2048) (c : Fin 768) : EReal :=
  attnR (scores X W b q) (values X W b) c

/-- The whole result array, normalising after the product. -/
def GK (X : SX.Idx → EReal) (W : SW.Idx → EReal) : SX.Idx → EReal := fun i => outK X W (i 0) (i 1) (i 2)

/-- The whole result array, normalising the weights first. -/
def GR (X : SX.Idx → EReal) (W : SW.Idx → EReal) : SX.Idx → EReal := fun i => outR X W (i 0) (i 1) (i 2)

theorem GK_ix3 (X : SX.Idx → EReal) (W : SW.Idx → EReal) (b : Fin 8) (q : Fin 2048) (c : Fin 768) :
    GK X W (ix3 b q c) = outK X W b q c := rfl

theorem GR_ix3 (X : SX.Idx → EReal) (W : SW.Idx → EReal) (b : Fin 8) (q : Fin 2048) (c : Fin 768) :
    GR X W (ix3 b q c) = outR X W b q c := rfl

end Cert.Attn

end
-- ==== Proof.AttnLaw.lean ====
/-
  The law that joins the two normalisations: for real scores and real value rows,
  (Σ_k e_k V_{k c}) / l = Σ_k (e_k / l) V_{k c}, because every e_k is a positive real and so is their sum l.
-/
import proofs.«405012_j21311627722866_3_alg».proof.Proof.AttnSpec

noncomputable section

namespace Cert.Attn

open Idealize.ShloMosaic Idealize.ShloMosaic.ValueIdx

/-! ## Real values stay real -/

/-- A finite sum of coerced reals is the coercion of the real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A row of reals times a matrix of reals is a real, entry by entry. -/
theorem proj_real {d o : ℕ} (a : Fin d → EReal) (w : Fin d → Fin o → EReal)
    (ha : ∀ t, ∃ r : ℝ, a t = (r : EReal)) (hw : ∀ t j, ∃ r : ℝ, w t j = (r : EReal)) (j : Fin o) :
    ∃ r : ℝ, proj a w j = (r : EReal) := by
  choose ar har using ha
  choose wr hwr using hw
  refine ⟨∑ t, ar t * wr t j, ?_⟩
  unfold proj
  rw [← coe_sum]
  exact Finset.sum_congr rfl fun t _ => by rw [har t, hwr t j, EReal.coe_mul]

/-- The scale word denotes a real number (it is 2⁻³). -/
theorem c8_real : ∃ r : ℝ, c8 = (r : EReal) := by
  simp [c8, Ideal.ofBits, Ideal.ieee]
  exact ⟨_, (EReal.coe_mul _ _).symm⟩

/-- The scaled score of real rows is a real. -/
theorem score_real {n o : ℕ} (q : Fin o → EReal) (K : Fin n → Fin o → EReal)
    (hq : ∀ j, ∃ r : ℝ, q j = (r : EReal)) (hK : ∀ k j, ∃ r : ℝ, K k j = (r : EReal)) (k : Fin n) :
    ∃ r : ℝ, score q K k = (r : EReal) := by
  obtain ⟨cr, hc⟩ := c8_real
  choose qr hqr using hq
  choose kr hkr using hK
  refine ⟨(∑ j, qr j * kr k j) * cr, ?_⟩
  unfold score
  rw [hc, EReal.coe_mul, ← coe_sum]
  congr 1
  exact Finset.sum_congr rfl fun j _ => by rw [hqr j, hkr k j, EReal.coe_mul]

/-- The largest of finitely many (at least one) real scores is a real: the fold from −∞ is at least the first score, so it
    is not −∞, and every score is below +∞, so the fold is. -/
theorem rowMax_real {n : ℕ} (hn : 0 < n) (s : Fin n → EReal) (hs : ∀ k, ∃ r : ℝ, s k = (r : EReal)) :
    ∃ r : ℝ, rowMax s = (r : EReal) := by
  choose sr hsr using hs
  have hbot : rowMax s ≠ ⊥ := by
    have h0 : s ⟨0, hn⟩ ≤ rowMax s :=
      (Finset.le_fold_max _).mpr (Or.inr ⟨⟨0, hn⟩, Finset.mem_univ _, le_rfl⟩)
    intro hb
    rw [hb, hsr] at h0
    exact absurd h0 (not_le.mpr (EReal.bot_lt_coe _))
  have htop : rowMax s ≠ ⊤ := by
    have h1 : rowMax s < ⊤ :=
      (Finset.fold_max_lt _).mpr ⟨bot_lt_top, fun x _ => by rw [hsr]; exact EReal.coe_lt_top _⟩
    exact h1.ne
  exact ⟨(rowMax s).toReal, (EReal.coe_toReal htop hbot).symm⟩

/-- With real scores and a real maximum, each shifted exponential is the coercion of a real exponential. -/
theorem expo_real {n : ℕ} (s : Fin n → EReal) (sr : Fin n → ℝ) (hs : ∀ k, s k = (sr k : EReal))
    (mr : ℝ) (hm : rowMax s = (mr : EReal)) (k : Fin n) :
    expo s k = ((Real.exp (sr k - mr) : ℝ) : EReal) := by
  unfold expo
  rw [hs k, hm, ← EReal.coe_sub, Ideal.exp_coe]

/-- So the normaliser is the coercion of the real sum of those exponentials. -/
theorem denom_real {n : ℕ} (s : Fin n → EReal) (sr : Fin n → ℝ) (hs : ∀ k, s k = (sr k : EReal))
    (mr : ℝ) (hm : rowMax s = (mr : EReal)) :
    denom s = ((∑ k, Real.exp (sr k - mr) : ℝ) : EReal) := by
  unfold denom
  rw [← coe_sum]
  exact Finset.sum_congr rfl fun k _ => expo_real s sr hs mr hm k

/-! ## The law -/

/-- For at least one key, real scores and real value rows, normalising after the weighted sum and normalising the weights
    first give the same number: the normaliser l is a positive real, dividing by it is multiplying by 1/l, and
    (Σ_k e_k v_k) · (1/l) = Σ_k (e_k · (1/l)) · v_k in ℝ. -/
theorem attnK_eq_attnR {n o : ℕ} (hn : 0 < n) (s : Fin n → EReal) (V : Fin n → Fin o → EReal)
    (hs : ∀ k, ∃ r : ℝ, s k = (r : EReal)) (hV : ∀ k c, ∃ r : ℝ, V k c = (r : EReal)) (c : Fin o) :
    attnK s V c = attnR s V c := by
  obtain ⟨mr, hm⟩ := rowMax_real hn s hs
  choose sr hsr using hs
  choose vr hvr using hV
  have he : ∀ k, expo s k = ((Real.exp (sr k - mr) : ℝ) : EReal) := expo_real s sr hsr mr hm
  have hl : denom s = ((∑ k, Real.exp (sr k - mr) : ℝ) : EReal) := denom_real s sr hsr mr hm
  have hpos : 0 < ∑ k : Fin n, Real.exp (sr k - mr) :=
    Finset.sum_pos (fun k _ => Real.exp_pos _) ⟨⟨0, hn⟩, Finset.mem_univ _⟩
  have hne : (∑ k : Fin n, Real.exp (sr k - mr)) ≠ 0 := hpos.ne'
  have hL : (∑ k, expo s k * V k c) = ((∑ k, Real.exp (sr k - mr) * vr k c : ℝ) : EReal) := by
    refine Eq.trans ?_ (coe_sum Finset.univ fun k => Real.exp (sr k - mr) * vr k c)
    exact Finset.sum_congr rfl fun k _ => by rw [he k, hvr k c, EReal.coe_mul]
  have hR : (∑ k, Ideal.div (expo s k) ((∑ k, Real.exp (sr k - mr) : ℝ) : EReal) * V k c)
      = ((∑ k, Real.exp (sr k - mr) * (1 / ∑ k, Real.exp (sr k - mr)) * vr k c : ℝ) : EReal) := by
    refine Eq.trans ?_ (coe_sum Finset.univ fun k => Real.exp (sr k - mr) * (1 / ∑ k, Real.exp (sr k - mr)) * vr k c)
    exact Finset.sum_congr rfl fun k _ => by
      rw [Ideal.div_coe hne, he k, hvr k c, EReal.coe_mul, EReal.coe_mul]
  unfold attnK attnR
  rw [hl, Ideal.div_coe hne, hL, hR, ← EReal.coe_mul]
  congr 1
  rw [Finset.sum_mul]
  exact Finset.sum_congr rfl fun k _ => by ring

/-- On real inputs the two whole-array functions are one. -/
theorem GK_eq_GR (X : SX.Idx → EReal) (W : SW.Idx → EReal)
    (hX : ∀ i, ∃ r : ℝ, X i = (r : EReal)) (hW : ∀ i, ∃ r : ℝ, W i = (r : EReal)) : GK X W = GR X W := by
  funext i
  show attnK (scores X W (i 0) (i 1)) (values X W (i 0)) (i 2)
      = attnR (scores X W (i 0) (i 1)) (values X W (i 0)) (i 2)
  refine attnK_eq_attnR (by norm_num) _ _ ?_ ?_ _
  · intro k
    exact score_real _ _ (proj_real _ _ (fun _ => hX _) (fun _ _ => hW _))
      (fun k' => proj_real _ _ (fun _ => hX _) (fun _ _ => hW _)) k
  · intro k c
    exact proj_real _ _ (fun _ => hX _) (fun _ _ => hW _) c

end Cert.Attn

end
-- ==== Proof.Finite.lean ====
/-
  From the precondition to real numbers: the precondition says that every entry of both inputs has absolute value
  below +∞, and an extended real with |x| < +∞ is a real number.
-/
import proofs.«405012_j21311627722866_3_alg».proof.Pre_finite_inputs
import proofs.«405012_j21311627722866_3_alg».proof.Proof.Gen.Pre_finite_inputs
import Idealize.ShloMosaic.PureOps.Ideal.Laws
import Idealize.ShloMosaic.Lib.ReduceAll
import Idealize.ShloMosaic.Lib.ValueIdx
import Idealize.ShloMosaic.Lib.IdealHost

noncomputable section

namespace Cert.Finite

open Idealize.ShloMosaic Idealize.ShloMosaic.ValueIdx

/-- The rank-0 shape has exactly one index: two index functions on the empty set of axes agree. -/
local instance : Subsingleton Cert.Pre_finite_inputs.S_.Idx := ⟨fun a b => funext fun d => d.elim0⟩

/-- The f32 pattern with exponent field all ones and mantissa zero is +∞. -/
private theorem ofBits_inf : Ideal.ofBits .f32 0x7F800000#32 = (⊤ : EReal) := by
  simp [Ideal.ofBits, Ideal.ieee]

/-- An extended real whose absolute value `max x (-x)` compares strictly below +∞ is a real number: at `⊥` the
    negation is `⊤`, at `⊤` the value itself is, and in both cases the maximum is `⊤`, which is not below `⊤`. -/
private theorem real_of_abs_olt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => exact absurd hlt (by simp)
  | coe r => exact ⟨r, rfl⟩
  | top => exact absurd hlt (by simp)

/-- One input's half of the predicate: if the all-axes `and` of "|x| < +∞" is 1, every entry is a real number. -/
private theorem real_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (e : Host.reduce IntOp.andi
          (cmpf .olt (Host.absf a) (broadcastInDim S ![] hb (constant (F := Ideal) Cert.Pre_finite_inputs.S_ .f32 0x7F800000#32)))
          init hr hu ix0 = 1#1) (i : S.Idx) : ∃ r : ℝ, a i = (r : EReal) := by
  have hi := Host.reduce_andi_all _ init hr hu ix0 e i
  rw [cmpf_apply, broadcastInDim_scalar_apply, constant_apply, Ideal.cmpf_def] at hi
  exact real_of_abs_olt_inf (a i) hi

/-- If the precondition's predicate is all ones on two arrays, every entry of both is a real number. -/
theorem real_of_pre (a0 : FVec Ideal Cert.Pre_finite_inputs.S8x2048x768 .f32) (a1 : FVec Ideal Cert.Pre_finite_inputs.S3x768x768 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ix0
  dsimp only [Cert.Pre_finite_inputs.fn] at h0
  obtain ⟨e0, e1⟩ := IntOp.andi_eq_one.1 h0
  exact ⟨fun i => real_of_all a0 _ _ _ _ e0 i, fun i => real_of_all a1 _ _ _ _ e1 i⟩

end Cert.Finite

end
-- ==== Proof.LibLayout.lean ====
/-
  Small layout and reduction readings at an index, for a row statistic kept as a column:
  a vector of length a cast to an [a, 1] column; that column broadcast along the rows of an [a, b] matrix; and the
  sum and the maximum of each row of an [a, b] matrix, read at row r.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

variable {α : Type} {a b : Nat}

/-- A length-a vector cast to an [a, 1] column, at (r, 0): entry r. -/
theorem shapeCast_a_a1_apply (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  -- the row-major position of (r, z) in [a, 1] is r · 1 + z, and z = 0
  shapeCast_apply x h _ _ (by
    have hz : z.val = 0 := by omega
    rw [Shape.rowMajor_val_two, Shape.rowMajor_val_one]
    show r.val = r.val * 1 + z.val
    rw [hz, Nat.mul_one, Nat.add_zero])

/-- An [a, 1] column broadcast to [a, b], at (r, c): the column's entry at row r. -/
theorem broadcastTo_a1_ab_apply (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) :=
  broadcastTo_apply v h _ _ (fun q => by
    match q with
    | ⟨0, _⟩ =>
      -- on the row axis the operand reads r; when a = 1 the axis is a unit axis and reads 0, which is r
      show r.val = if a = 1 then 0 else r.val
      split
      · have := r.isLt; omega
      · rfl
    | ⟨1, _⟩ =>
      -- the column axis of the operand is a unit axis
      show (0 : ℕ) = if (1 : ℕ) = 1 then 0 else c.val
      rfl)

/-- The f32 word of −∞ denotes the bottom of the extended reals. -/
theorem ofBits_negInf_f32 : Ideal.ofBits .f32 0xFF800000#32 = (⊥ : EReal) := by
  simp [Ideal.ofBits, Ideal.ieee]

/-- The reduced index r with column k put back is (r, k). -/
private theorem lift_row (h : Shape.Reduces ⟨2, ![a, b]⟩ [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- The sum of each row of an [a, b] matrix, read at row r. -/
theorem rowSum_f32_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src _ h hφ hacc (ix1 r)).trans ?_
  show ∑ k : Fin b, src (h.lift (ix1 r) k) = ∑ k : Fin b, src (ix2 r k)
  exact Finset.sum_congr rfl fun k _ => congrArg src (lift_row h r k)

/-- The maximum of each row of an [a, b] matrix from −∞, read at row r: the fold of max from the bottom. -/
theorem rowMax_f32_apply (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ src 0xFF800000#32 h hφ hacc (ix1 r)
      = (Finset.univ : Finset (Fin b)).fold max (⊥ : EReal) (fun k => src (ix2 r k)) := by
  refine (Ideal.multiReduction_maximumf_single src _ h hφ hacc (ix1 r)).trans ?_
  have hf : (src ∘ h.lift (ix1 r)) = fun k : Fin b => src (ix2 r k) := funext fun k => congrArg src (lift_row h r k)
  show (Finset.univ : Finset (Fin b)).fold max (Ideal.ofBits .f32 0xFF800000#32) (src ∘ h.lift (ix1 r)) = _
  rw [ofBits_negInf_f32, hf]
  rfl

end Cert.Lib

end
-- ==== Proof.RefValue.lean ====
/-
  The reference program's result, read index by index over the extended reals: the projections Q, K, V of each batch
  entry, the scaled scores, the row maximum (taken from −∞, and once more against −∞, which changes nothing), the
  shifted exponentials, their sum, the normalised weights, and the weighted sum of the value rows — the attention
  result with the weights normalised first.
-/
import proofs.«405012_j21311627722866_3_alg».proof.Proof.Gen.ReferenceIdeal.Read
import proofs.«405012_j21311627722866_3_alg».proof.Proof.AttnSpec
import proofs.«405012_j21311627722866_3_alg».proof.Proof.LibLayout

noncomputable section

namespace Cert.ReferenceIdeal.RefValue

open Cert.ReferenceIdeal Cert.ReferenceIdeal.Read Idealize.ShloMosaic Idealize.ShloMosaic.ValueIdx Cert.Attn

/-! ## The weight matrices: a slice of the triple, then the leading unit axis dropped -/

/-- Entry (t, j) of the first sliced-and-reshaped matrix is entry (0, t, j) of the triple: the flat position
    t·768 + j splits back into t and j. -/
private theorem w0_apply (x1 : FVec Ideal S3x768x768 .f32) (t j : Fin 768) :
    val_main_v1 (F := Ideal) x1 (ix2 t j) = wmat x1 0 t j := by
  have ht := t.isLt
  have hj := j.isLt
  refine (val_main_v1_apply (F := Ideal) x1 (ix2 t j)).trans ((val_main_v0_apply (F := Ideal) x1 _).trans ?_)
  refine congrArg x1 (funext fun a => Fin.ext ?_)
  match a with
  | ⟨0, _⟩ => rfl
  | ⟨1, _⟩ => show (t.val * 768 + j.val) / 768 % 768 = t.val; omega
  | ⟨2, _⟩ => show (t.val * 768 + j.val) % 768 = j.val; omega

/-- Entry (t, j) of the second sliced-and-reshaped matrix is entry (1, t, j) of the triple: the flat position
    t·768 + j splits back into t and j. -/
private theorem w1_apply (x1 : FVec Ideal S3x768x768 .f32) (t j : Fin 768) :
    val_main_v4 (F := Ideal) x1 (ix2 t j) = wmat x1 1 t j := by
  have ht := t.isLt
  have hj := j.isLt
  refine (val_main_v4_apply (F := Ideal) x1 (ix2 t j)).trans ((val_main_v3_apply (F := Ideal) x1 _).trans ?_)
  refine congrArg x1 (funext fun a => Fin.ext ?_)
  match a with
  | ⟨0, _⟩ => rfl
  | ⟨1, _⟩ => show (t.val * 768 + j.val) / 768 % 768 = t.val; omega
  | ⟨2, _⟩ => show (t.val * 768 + j.val) % 768 = j.val; omega

/-- Entry (t, j) of the third sliced-and-reshaped matrix is entry (2, t, j) of the triple: the flat position
    t·768 + j splits back into t and j. -/
private theorem w2_apply (x1 : FVec Ideal S3x768x768 .f32) (t j : Fin 768) :
    val_main_v7 (F := Ideal) x1 (ix2 t j) = wmat x1 2 t j := by
  have ht := t.isLt
  have hj := j.isLt
  refine (val_main_v7_apply (F := Ideal) x1 (ix2 t j)).trans ((val_main_v6_apply (F := Ideal) x1 _).trans ?_)
  refine congrArg x1 (funext fun a => Fin.ext ?_)
  match a with
  | ⟨0, _⟩ => rfl
  | ⟨1, _⟩ => show (t.val * 768 + j.val) / 768 % 768 = t.val; omega
  | ⟨2, _⟩ => show (t.val * 768 + j.val) % 768 = j.val; omega

/-! ## The three projections -/

/-- Row r of batch b of the queries, entry j: the row of the input against column j of matrix 0. -/
private theorem q_apply (x0 : FVec Ideal S8x2048x768 .f32) (x1 : FVec Ideal S3x768x768 .f32)
    (b : Fin 8) (r : Fin 2048) (j : Fin 768) :
    val_main_v2 (F := Ideal) x0 x1 (ix3 b r j) = proj (xrow x0 b r) (wmat x1 0) j := by
  refine (val_main_v2_apply x0 x1 (ix3 b r j)).trans ?_
  unfold proj
  refine Finset.sum_congr rfl fun t _ => ?_
  have el : lidx_main_v2 (ix3 b r j) t = ix3 b r t := by
    funext a; match a with | ⟨0, _⟩ => rfl | ⟨1, _⟩ => rfl | ⟨2, _⟩ => rfl
  have er : ridx_main_v2 (ix3 b r j) t = ix2 t j := by
    funext a; match a with | ⟨0, _⟩ => rfl | ⟨1, _⟩ => rfl
  rw [el, er, w0_apply]
  rfl

/-- Row r of batch b of the keys, entry j: the row of the input against column j of matrix 1. -/
private theorem k_apply (x0 : FVec Ideal S8x2048x768 .f32) (x1 : FVec Ideal S3x768x768 .f32)
    (b : Fin 8) (r : Fin 2048) (j : Fin 768) :
    val_main_v5 (F := Ideal) x0 x1 (ix3 b r j) = proj (xrow x0 b r) (wmat x1 1) j := by
  refine (val_main_v5_apply x0 x1 (ix3 b r j)).trans ?_
  unfold proj
  refine Finset.sum_congr rfl fun t _ => ?_
  have el : lidx_main_v5 (ix3 b r j) t = ix3 b r t := by
    funext a; match a with | ⟨0, _⟩ => rfl | ⟨1, _⟩ => rfl | ⟨2, _⟩ => rfl
  have er : ridx_main_v5 (ix3 b r j) t = ix2 t j := by
    funext a; match a with | ⟨0, _⟩ => rfl | ⟨1, _⟩ => rfl
  rw [el, er, w1_apply]
  rfl

/-- Row r of batch b of the values, entry j: the row of the input against column j of matrix 2. -/
private theorem v_apply (x0 : FVec Ideal S8x2048x768 .f32) (x1 : FVec Ideal S3x768x768 .f32)
    (b : Fin 8) (r : Fin 2048) (j : Fin 768) :
    val_main_v8 (F := Ideal) x0 x1 (ix3 b r j) = proj (xrow x0 b r) (wmat x1 2) j := by
  refine (val_main_v8_apply x0 x1 (ix3 b r j)).trans ?_
  unfold proj
  refine Finset.sum_congr rfl fun t _ => ?_
  have el : lidx_main_v8 (ix3 b r j) t = ix3 b r t := by
    funext a; match a with | ⟨0, _⟩ => rfl | ⟨1, _⟩ => rfl | ⟨2, _⟩ => rfl
  have er : ridx_main_v8 (ix3 b r j) t = ix2 t j := by
    funext a; match a with | ⟨0, _⟩ => rfl | ⟨1, _⟩ => rfl
  rw [el, er, w2_apply]
  rfl

/-! ## The scaled scores -/

/-- Score (b, q, k): the query row against the key row, times the scale. -/
private theorem scores_apply (x0 : FVec Ideal S8x2048x768 .f32) (x1 : FVec Ideal S3x768x768 .f32)
    (b : Fin 8) (q k : Fin 2048) :
    val_main_v11 (F := Ideal) x0 x1 (ix3 b q k) = scores x0 x1 b q k := by
  refine (val_main_v11_apply (F := Ideal) x0 x1 (ix3 b q k)).trans ?_
  rw [Ideal.mulf_def, val_main_v10_apply (F := Ideal), val_main_cst_apply (F := Ideal), Ideal.ofBits_def,
    val_main_v9_apply]
  unfold scores score
  refine congrArg (· * c8) (Finset.sum_congr rfl fun j _ => ?_)
  have el : lidx_main_v9 (ix3 b q k) j = ix3 b q j := by
    funext a; match a with | ⟨0, _⟩ => rfl | ⟨1, _⟩ => rfl | ⟨2, _⟩ => rfl
  have er : ridx_main_v9 (ix3 b q k) j = ix3 b k j := by
    funext a; match a with | ⟨0, _⟩ => rfl | ⟨1, _⟩ => rfl | ⟨2, _⟩ => rfl
  rw [el, er, q_apply, k_apply]

/-! ## The row maximum -/

/-- The reduced index (b, q) with coordinate k put back on the last axis is (b, q, k). -/
private theorem lift_ix3 (h : S8x2048x2048.Reduces [2] S8x2048) (b : Fin 8) (q : Fin 2048)
    (k : Fin (S8x2048x2048.size 2)) : h.lift (ix2 b q) k = ix3 b q (⟨k.val, k.isLt⟩ : Fin 2048) := by
  funext c; apply Fin.ext
  fin_cases c <;> rfl

/-- The maximum over the keys from −∞, taken once more against −∞: the fold of max from the bottom. -/
private theorem rowMax_apply (x0 : FVec Ideal S8x2048x768 .f32) (x1 : FVec Ideal S3x768x768 .f32)
    (b : Fin 8) (q : Fin 2048) :
    val_main_v14 (F := Ideal) x0 x1 (ix2 b q) = rowMax (scores x0 x1 b q) := by
  have h : S8x2048x2048.Reduces [2] S8x2048 := by decide
  refine (val_main_v14_apply (F := Ideal) x0 x1 (ix2 b q)).trans ?_
  rw [Ideal.maximumf_def, val_main_v13_apply (F := Ideal), val_main_cst_1_apply (F := Ideal), Ideal.ofBits_def,
    Cert.Lib.ofBits_negInf_f32, max_eq_right bot_le]
  unfold val_main_v12
  rw [Host.reduce_eq_fold_single FloatOps.maximumf _ _ Facts₀.reducesTo_S8x2048x2048_S8x2048_d2 h Facts₀.h_S_]
  rw [val_main_cst_0_apply (F := Ideal), Ideal.ofBits_def, Cert.Lib.ofBits_negInf_f32]
  have hf : (val_main_v11 (F := Ideal) x0 x1 ∘ h.lift (ix2 b q)) = scores x0 x1 b q :=
    funext fun k => (congrArg (val_main_v11 (F := Ideal) x0 x1) (lift_ix3 h b q k)).trans (scores_apply x0 x1 b q _)
  rw [hf]
  rfl

/-! ## The shifted exponentials and their sum -/

/-- The row maximum, kept as a column and broadcast back along the keys, read at (b, q, k): the maximum of row (b, q). -/
private theorem shift_apply (x0 : FVec Ideal S8x2048x768 .f32) (x1 : FVec Ideal S3x768x768 .f32)
    (b : Fin 8) (q k : Fin 2048) :
    val_main_v16 (F := Ideal) x0 x1 (ix3 b q k) = rowMax (scores x0 x1 b q) := by
  refine (val_main_v16_apply (F := Ideal) x0 x1 (ix3 b q k)).trans ((val_main_v15_apply (F := Ideal) x0 x1 _).trans ?_)
  have e : idx_main_v15 (idx_main_v16 (ix3 b q k)) = ix2 b q := by
    funext a; match a with | ⟨0, _⟩ => rfl | ⟨1, _⟩ => rfl
  rw [e]
  exact rowMax_apply x0 x1 b q

/-- The exponential of score (b, q, k) less the row maximum. -/
private theorem expo_apply (x0 : FVec Ideal S8x2048x768 .f32) (x1 : FVec Ideal S3x768x768 .f32)
    (b : Fin 8) (q k : Fin 2048) :
    val_main_v18 (F := Ideal) x0 x1 (ix3 b q k) = expo (scores x0 x1 b q) k := by
  refine (val_main_v18_apply (F := Ideal) x0 x1 (ix3 b q k)).trans ?_
  rw [Ideal.hostUnary_exp_def, val_main_v17_apply (F := Ideal), Ideal.subf_def, scores_apply, shift_apply]
  rfl

/-- The sum over the keys of the shifted exponentials, from zero. -/
private theorem denom_apply (x0 : FVec Ideal S8x2048x768 .f32) (x1 : FVec Ideal S3x768x768 .f32)
    (b : Fin 8) (q : Fin 2048) :
    val_main_v19 (F := Ideal) x0 x1 (ix2 b q) = denom (scores x0 x1 b q) := by
  refine (val_main_v19_apply x0 x1 (ix2 b q)).trans ?_
  rw [val_main_cst_2_apply (F := Ideal), Ideal.ofBits_def, Ideal.ofBits_zero_f32, zero_add]
  unfold denom
  refine Finset.sum_congr rfl fun k _ => ?_
  have e : idx_main_v19 (ix2 b q) k = ix3 b q k := by
    funext a; match a with | ⟨0, _⟩ => rfl | ⟨1, _⟩ => rfl | ⟨2, _⟩ => rfl
  rw [e]
  exact expo_apply x0 x1 b q k

/-- The normaliser, kept as a column and broadcast back along the keys, read at (b, q, k): the sum of row (b, q). -/
private theorem norm_apply (x0 : FVec Ideal S8x2048x768 .f32) (x1 : FVec Ideal S3x768x768 .f32)
    (b : Fin 8) (q k : Fin 2048) :
    val_main_v21 (F := Ideal) x0 x1 (ix3 b q k) = denom (scores x0 x1 b q) := by
  refine (val_main_v21_apply (F := Ideal) x0 x1 (ix3 b q k)).trans ((val_main_v20_apply (F := Ideal) x0 x1 _).trans ?_)
  have e : idx_main_v20 (idx_main_v21 (ix3 b q k)) = ix2 b q := by
    funext a; match a with | ⟨0, _⟩ => rfl | ⟨1, _⟩ => rfl
  rw [e]
  exact denom_apply x0 x1 b q

/-- The normalised weight of key k for query (b, q). -/
private theorem weight_apply (x0 : FVec Ideal S8x2048x768 .f32) (x1 : FVec Ideal S3x768x768 .f32)
    (b : Fin 8) (q k : Fin 2048) :
    val_main_v22 (F := Ideal) x0 x1 (ix3 b q k)
      = Ideal.div (expo (scores x0 x1 b q) k) (denom (scores x0 x1 b q)) := by
  refine (val_main_v22_apply (F := Ideal) x0 x1 (ix3 b q k)).trans ?_
  rw [Ideal.hostDivf_def, expo_apply, norm_apply]

/-! ## The result -/

/-- Entry (b, q, c) of the last stage: the normalised weights against column c of the value rows. -/
private theorem out_apply (x0 : FVec Ideal S8x2048x768 .f32) (x1 : FVec Ideal S3x768x768 .f32)
    (b : Fin 8) (q : Fin 2048) (c : Fin 768) :
    val_main_v23 (F := Ideal) x0 x1 (ix3 b q c) = outR x0 x1 b q c := by
  refine (val_main_v23_apply x0 x1 (ix3 b q c)).trans ?_
  unfold outR attnR values
  refine Finset.sum_congr rfl fun k _ => ?_
  have el : lidx_main_v23 (ix3 b q c) k = ix3 b q k := by
    funext a; match a with | ⟨0, _⟩ => rfl | ⟨1, _⟩ => rfl | ⟨2, _⟩ => rfl
  have er : ridx_main_v23 (ix3 b q c) k = ix3 b k c := by
    funext a; match a with | ⟨0, _⟩ => rfl | ⟨1, _⟩ => rfl | ⟨2, _⟩ => rfl
  rw [el, er, weight_apply, v_apply]

/-- The reference's last stage is the attention function that normalises the weights first. -/
theorem ref_eq (x0 : FVec Ideal S8x2048x768 .f32) (x1 : FVec Ideal S3x768x768 .f32) :
    val_main_v23 (F := Ideal) x0 x1 = GR x0 x1 := by
  funext i
  obtain ⟨b, q, c, rfl⟩ : ∃ (b : Fin 8) (q : Fin 2048) (c : Fin 768), i = ix3 b q c := ⟨i 0, i 1, i 2, eq_ix3 i⟩
  exact (out_apply x0 x1 b q c).trans (GR_ix3 x0 x1 b q c).symm

end Cert.ReferenceIdeal.RefValue

end
-- ==== Proof.Pieces.lean ====
/-
  What each control case of the kernel body leaves in its buffers, as values.
  At the first point of a batch (case A) the body stores the K and V projections of the whole batch block into the two
  scratch buffers and, reading them back, the tile's attention result into the output block; at the other points
  (case B) it leaves the scratch buffers as it found them and stores the tile's result computed from their contents.
  Each buffer is written by ONE store that covers it, so what it holds afterwards is that store's value.
-/
import proofs.«405012_j21311627722866_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Matrix p of the staged weight triple, as the body loads it: a [1, 768, 768] slice at offset (p, 0, 0). -/
abbrev wq (x1 : Vec F S3x768x768 .bf16) : Vec F S1x768x768 .bf16 :=
  View.ld x1 (Rect.unit (s := S3x768x768) ![0, 0, 0] S1x768x768.size Facts₀.inb_S3x768x768_S1x768x768_0_0_0)
abbrev wk (x1 : Vec F S3x768x768 .bf16) : Vec F S1x768x768 .bf16 :=
  View.ld x1 (Rect.unit (s := S3x768x768) ![1, 0, 0] S1x768x768.size Facts₀.inb_S3x768x768_S1x768x768_1_0_0)
abbrev wv (x1 : Vec F S3x768x768 .bf16) : Vec F S1x768x768 .bf16 :=
  View.ld x1 (Rect.unit (s := S3x768x768) ![2, 0, 0] S1x768x768.size Facts₀.inb_S3x768x768_S1x768x768_2_0_0)

/-- The tile of 512 query rows the body loads from the staged batch block at grid coordinates i. -/
abbrev xtile (i : grid0.Coords) (x0 : Vec F S1x2048x768 .bf16) : Vec F S1x512x768 .bf16 :=
  View.ld x0 (Rect.unit (s := S1x2048x768) (k0_off1 i) S1x512x768.size (Facts₀.k0_off1_inb i))

/-- Case A leaves the K projection of the batch block in the first scratch buffer. -/
theorem scratchK_A (c : Dev nD) (i : grid0.Coords) (a2 : Memref sig .tc .vmem S1x2048x768 .bf16) (h2 : a2.IsWhole) (a3 : Memref sig .tc .vmem S3x768x768 .bf16) (h3 : a3.IsWhole) (a4 : Memref sig .tc .vmem S1x512x768 .f32) (h4 : a4.IsWhole) (a5 : Memref sig .tc .vmem S2048x768 .bf16) (h5 : a5.IsWhole) (a6 : Memref sig .tc .vmem S2048x768 .bf16) (h6 : a6.IsWhole) (hc : cond0_0 i)
    (x0 : Vec F S1x2048x768 .bf16) (x1 : Vec F S3x768x768 .bf16) :
    sout0_A_0 c i a2 h2 a3 h3 a4 h4 a5 h5 a6 h6 hc x0 x1 = k0_pay2 x0 (wk x1) := by
  unfold sout0_A_0
  rw [View.read_writes_eq_canon _ _ _ (scover0_A_0 c i a2 h2 a3 h3 a4 h4 a5 h5 a6 h6 hc x0 x1)]
  unfold kernelRun0_A
  dsimp only
  sl_unfold_words
  rw [View.canon_unit_zero hz2]
  simp only [View.readAt_eq_ld, h2.read_unread, h3.read_unread, View.ld_unit_zero (S := S1x2048x768) hz3]

/-- Case A leaves the V projection of the batch block in the second scratch buffer. -/
theorem scratchV_A (c : Dev nD) (i : grid0.Coords) (a2 : Memref sig .tc .vmem S1x2048x768 .bf16) (h2 : a2.IsWhole) (a3 : Memref sig .tc .vmem S3x768x768 .bf16) (h3 : a3.IsWhole) (a4 : Memref sig .tc .vmem S1x512x768 .f32) (h4 : a4.IsWhole) (a5 : Memref sig .tc .vmem S2048x768 .bf16) (h5 : a5.IsWhole) (a6 : Memref sig .tc .vmem S2048x768 .bf16) (h6 : a6.IsWhole) (hc : cond0_0 i)
    (x0 : Vec F S1x2048x768 .bf16) (x1 : Vec F S3x768x768 .bf16) :
    sout0_A_1 c i a2 h2 a3 h3 a4 h4 a5 h5 a6 h6 hc x0 x1 = k0_pay3 x0 (wv x1) := by
  unfold sout0_A_1
  rw [View.read_writes_eq_canon _ _ _ (scover0_A_1 c i a2 h2 a3 h3 a4 h4 a5 h5 a6 h6 hc x0 x1)]
  unfold kernelRun0_A
  dsimp only
  sl_unfold_words
  rw [View.canon_unit_zero hz2]
  simp only [View.readAt_eq_ld, h2.read_unread, h3.read_unread, View.ld_unit_zero (S := S1x2048x768) hz3]

/-- Case B's output block: the tile's result from the scratch contents the point before left. -/
theorem out_B (c : Dev nD) (i : grid0.Coords) (a2 : Memref sig .tc .vmem S1x2048x768 .bf16) (h2 : a2.IsWhole) (a3 : Memref sig .tc .vmem S3x768x768 .bf16) (h3 : a3.IsWhole) (a4 : Memref sig .tc .vmem S1x512x768 .f32) (h4 : a4.IsWhole) (a5 : Memref sig .tc .vmem S2048x768 .bf16) (h5 : a5.IsWhole) (a6 : Memref sig .tc .vmem S2048x768 .bf16) (h6 : a6.IsWhole) (hc : ¬cond0_0 i)
    (x0 : Vec F S1x2048x768 .bf16) (x1 : Vec F S3x768x768 .bf16) (xs0 xs1 : Vec F S2048x768 .bf16) :
    out0_B_2 c i a2 h2 a3 h3 a4 h4 a5 h5 a6 h6 hc x0 x1 xs0 xs1 = k0_pay4 (xtile i x0) (wq x1) xs0 xs1 := by
  unfold out0_B_2
  rw [View.read_writes_eq_canon _ _ _ (cover0_B_2 c i a2 h2 a3 h3 a4 h4 a5 h5 a6 h6 hc x0 x1 xs0 xs1)]
  unfold kernelRun0_B
  dsimp only
  sl_unfold_words
  rw [View.canon_unit_zero hz3]
  simp only [View.readAt_eq_ld, h2.read_unread, h3.read_unread, h5.read_unread, h6.read_unread, View.ld_unit_zero (S := S2048x768) hz2]
  rfl

/-- Case A's output block: the tile's result from the K and V the same point has just stored. -/
theorem out_A (c : Dev nD) (i : grid0.Coords) (a2 : Memref sig .tc .vmem S1x2048x768 .bf16) (h2 : a2.IsWhole) (a3 : Memref sig .tc .vmem S3x768x768 .bf16) (h3 : a3.IsWhole) (a4 : Memref sig .tc .vmem S1x512x768 .f32) (h4 : a4.IsWhole) (a5 : Memref sig .tc .vmem S2048x768 .bf16) (h5 : a5.IsWhole) (a6 : Memref sig .tc .vmem S2048x768 .bf16) (h6 : a6.IsWhole) (hc : cond0_0 i)
    (x0 : Vec F S1x2048x768 .bf16) (x1 : Vec F S3x768x768 .bf16) :
    out0_A_2 c i a2 h2 a3 h3 a4 h4 a5 h5 a6 h6 hc x0 x1 = k0_pay4 (xtile i x0) (wq x1) (k0_pay2 x0 (wk x1)) (k0_pay3 x0 (wv x1)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_unit_zero hz3]
  simp only [View.readAt_eq_ld, h2.read_unread, h3.read_unread, View.ld_unit_zero (S := S1x2048x768) hz3,
    View.readCov_unit_zero (S := S2048x768) _ hz2]
  rfl

end Cert.KernelIdeal.Pieces

end
-- ==== Proof.Blocks.lean ====
/-
  Where the kernel's blocks sit in the arrays. The grid has 8 × 4 points; point t works on batch entry t / 4 and on
  the tile of query rows 512·(t mod 4) … 512·(t mod 4) + 511. The first input window stages the whole [2048, 768]
  block of that batch entry, the second the whole weight triple, and the output window the tile's [512, 768] block.
  The two host operations in front of the launch only change the float format, which over the extended reals is the
  identity.
-/
import proofs.«405012_j21311627722866_3_alg».proof.Proof.Pieces
import Idealize.ShloMosaic.Lib.ValueIdx
import Idealize.ShloMosaic.Lib.StableHlo.Run

noncomputable section

namespace Cert.KernelIdeal.Blocks

open Cert.KernelIdeal Cert.KernelIdeal.Gen Cert.KernelIdeal.Pieces Idealize.ShloMosaic Idealize.ShloMosaic.TcCoe
open Idealize.SL.Sem Idealize.ShloMosaic.ValueIdx

variable {F : FTy → Type} [FloatOps F]
variable (m : (ℓ : Loc nD τ sig) → Buf (Elt F) ℓ)

theorem lt32 (t : Fin cfg0.N) : t.val < 32 := lt_of_lt_of_eq t.isLt (show cfg0.N = 32 from N_0)

/-- The batch entry point t works on. -/
def bOf (t : Fin cfg0.N) : Fin 8 := ⟨t.val / 4, by have := lt32 t; omega⟩

/-- The array row of the tile's row r at point t. -/
def qOf (t : Fin cfg0.N) (r : Fin 512) : Fin 2048 := ⟨512 * (t.val % 4) + r.val, by have := r.isLt; omega⟩

/-- The printed index maps over the grid: the batch block, the (constant) weight block, the output tile. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0 :=
  (by decide +kernel : ∀ t : Fin grid0.N, _)

/-- The offsets of the tile's load inside the staged batch block. -/
theorem off_facts : ∀ t : Fin cfg0.N,
    k0_off1 (grid0.coords t) (0 : Fin 3) = 0 ∧ k0_off1 (grid0.coords t) (1 : Fin 3) = 512 * (t.val % 4)
    ∧ k0_off1 (grid0.coords t) (2 : Fin 3) = 0 :=
  (by decide +kernel : ∀ t : Fin grid0.N, _)

/-- The staged batch block at point t, entry (·, k, d): row k of batch entry t / 4. -/
theorem xblk_apply (c : Dev nD) (t : Fin cfg0.N) (z : Fin 1) (k : Fin 2048) (d : Fin 768) :
    (iblk m c 0 t : Vec F S1x2048x768 .bf16) (ix3 z k d) = (V m c main_v0 : Vec F S8x2048x768 .bf16) (ix3 (bOf t) k d) := by
  obtain ⟨e0, e1, e2, -⟩ := idx_facts t
  show V m c main_v0 (((cfg0.win 0).blk t).view.emb (ix3 z k d)) = _
  refine congrArg (V m c main_v0) (funext fun a => Fin.ext ?_)
  have hz : z.val = 0 := by have := z.isLt; omega
  match a with
  | ⟨0, _⟩ => show win0_0.index t (0 : Fin 3) * 1 + 1 * z.val = t.val / 4; omega
  | ⟨1, _⟩ => show win0_0.index t (1 : Fin 3) * 2048 + 1 * k.val = k.val; omega
  | ⟨2, _⟩ => show win0_0.index t (2 : Fin 3) * 768 + 1 * d.val = d.val; omega

/-- The staged weight block at any point is the whole weight array. -/
theorem wblk_apply (c : Dev nD) (t : Fin cfg0.N) (p : Fin 3) (d : Fin 768) (j : Fin 768) :
    (iblk m c 1 t : Vec F S3x768x768 .bf16) (ix3 p d j) = (V m c main_v1 : Vec F S3x768x768 .bf16) (ix3 p d j) := by
  obtain ⟨-, -, -, e0, e1, e2, -⟩ := idx_facts t
  show V m c main_v1 (((cfg0.win 1).blk t).view.emb (ix3 p d j)) = _
  refine congrArg (V m c main_v1) (funext fun a => Fin.ext ?_)
  match a with
  | ⟨0, _⟩ => show win0_1.index t (0 : Fin 3) * 3 + 1 * p.val = p.val; omega
  | ⟨1, _⟩ => show win0_1.index t (1 : Fin 3) * 768 + 1 * d.val = d.val; omega
  | ⟨2, _⟩ => show win0_1.index t (2 : Fin 3) * 768 + 1 * j.val = j.val; omega

/-- The three matrices the body loads from the staged weight block. -/
theorem wq_apply (x1 : Vec F S3x768x768 .bf16) (z : Fin 1) (d j : Fin 768) : wq x1 (ix3 z d j) = x1 (ix3 (0 : Fin 3) d j) := by
  have hz : z.val = 0 := by have := z.isLt; omega
  show x1 _ = x1 _
  refine congrArg x1 (funext fun a => Fin.ext ?_)
  match a with
  | ⟨0, _⟩ => show 0 + 1 * z.val = 0; omega
  | ⟨1, _⟩ => show 0 + 1 * d.val = d.val; omega
  | ⟨2, _⟩ => show 0 + 1 * j.val = j.val; omega
theorem wk_apply (x1 : Vec F S3x768x768 .bf16) (z : Fin 1) (d j : Fin 768) : wk x1 (ix3 z d j) = x1 (ix3 (1 : Fin 3) d j) := by
  have hz : z.val = 0 := by have := z.isLt; omega
  show x1 _ = x1 _
  refine congrArg x1 (funext fun a => Fin.ext ?_)
  match a with
  | ⟨0, _⟩ => show 1 + 1 * z.val = 1; omega
  | ⟨1, _⟩ => show 0 + 1 * d.val = d.val; omega
  | ⟨2, _⟩ => show 0 + 1 * j.val = j.val; omega
theorem wv_apply (x1 : Vec F S3x768x768 .bf16) (z : Fin 1) (d j : Fin 768) : wv x1 (ix3 z d j) = x1 (ix3 (2 : Fin 3) d j) := by
  have hz : z.val = 0 := by have := z.isLt; omega
  show x1 _ = x1 _
  refine congrArg x1 (funext fun a => Fin.ext ?_)
  match a with
  | ⟨0, _⟩ => show 2 + 1 * z.val = 2; omega
  | ⟨1, _⟩ => show 0 + 1 * d.val = d.val; omega
  | ⟨2, _⟩ => show 0 + 1 * j.val = j.val; omega

/-- The tile of query rows the body loads at point t: rows 512·(t mod 4) + r of the staged batch block. -/
theorem xtile_apply (t : Fin cfg0.N) (x0 : Vec F S1x2048x768 .bf16) (z : Fin 1) (r : Fin 512) (d : Fin 768) :
    xtile (grid0.coords t) x0 (ix3 z r d) = x0 (ix3 (0 : Fin 1) (qOf t r) d) := by
  obtain ⟨o0, o1, o2⟩ := off_facts t
  have hz : z.val = 0 := by have := z.isLt; omega
  show x0 _ = x0 _
  refine congrArg x0 (funext fun a => Fin.ext ?_)
  match a with
  | ⟨0, _⟩ => show k0_off1 (grid0.coords t) (0 : Fin 3) + 1 * z.val = 0; omega
  | ⟨1, _⟩ => show k0_off1 (grid0.coords t) (1 : Fin 3) + 1 * r.val = 512 * (t.val % 4) + r.val; omega
  | ⟨2, _⟩ => show k0_off1 (grid0.coords t) (2 : Fin 3) + 1 * d.val = d.val; omega

end Cert.KernelIdeal.Blocks

/-! ## The host operations in front of the launch, over the extended reals -/

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ)

/-- The launch finds the first operand at the first argument's contents: the conversion is the identity. -/
theorem V_v0 (c : Dev nD) : (V m c main_v0 : S8x2048x768.Idx → EReal) = m ((c : Thread nD τ).loc main_arg0) := by
  dsimp only [Gen.V, Gen.hostOps0]; after_results; rfl

/-- The launch finds the second operand at the second argument's contents. -/
theorem V_v1 (c : Dev nD) : (V m c main_v1 : S3x768x768.Idx → EReal) = m ((c : Thread nD τ).loc main_arg1) := by
  dsimp only [Gen.V, Gen.hostOps0]; after_results; rfl

end Cert.KernelIdeal.Blocks

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibDotSumT.lean ====
/-
  A matrix product whose two operands are BOTH contracted over their second axis, read at an output index:
  [M, K] against [N, K] gives [M, N], and the entry at (r, c) is the sum over k of A (r, k) · B (c, k) — a product with
  the transposed right operand, with no transpose taken. Stated for any extents and any dimension-numbers record with
  those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × rows: left axis 1 against right axis 1 -/

/-- The dimension numbers of an [M, K] × [N, K]ᵀ product. -/
def rr (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's row coordinate is the output's row coordinate. -/
theorem rr_lhs_0 (i : (⟨2, ![M, N]⟩ : Shape).Idx) (q : (rr wf).contr.Idx) : ((rr wf).lhsIdx i q 0).val = (i 0).val := by
  unfold DotDims.lhsIdx
  rw [dif_neg (show ¬(0 : Fin (⟨2, ![M, K]⟩ : Shape).rank) ∈ (rr wf).lhsBatch by simp [rr]),
    dif_pos (show (0 : Fin (⟨2, ![M, K]⟩ : Shape).rank) ∈ (rr wf).lhsNonContracting by simp [rr])]
  rfl
/-- The left operand's column coordinate is the contraction coordinate. -/
theorem rr_lhs_1 (i : (⟨2, ![M, N]⟩ : Shape).Idx) (q : (rr wf).contr.Idx) :
    ((rr wf).lhsIdx i q 1).val = (q ⟨0, Nat.one_pos⟩).val :=
  (rr wf).lhsIdx_val_of_single rfl i q
/-- The right operand's row coordinate is the output's column coordinate. -/
theorem rr_rhs_0 (i : (⟨2, ![M, N]⟩ : Shape).Idx) (q : (rr wf).contr.Idx) : ((rr wf).rhsIdx i q 0).val = (i 1).val := by
  unfold DotDims.rhsIdx
  rw [dif_neg (show ¬(0 : Fin (⟨2, ![N, K]⟩ : Shape).rank) ∈ (rr wf).rhsBatch by simp [rr]),
    dif_pos (show (0 : Fin (⟨2, ![N, K]⟩ : Shape).rank) ∈ (rr wf).rhsNonContracting by simp [rr])]
  rfl
/-- The right operand's column coordinate is the contraction coordinate. -/
theorem rr_rhs_1 (i : (⟨2, ![M, N]⟩ : Shape).Idx) (q : (rr wf).contr.Idx) :
    ((rr wf).rhsIdx i q 1).val = (q ⟨0, Nat.one_pos⟩).val :=
  (rr wf).rhsIdx_val_of_single rfl i q

/-- The contraction sum of a rows × rows product at (r, c) runs over the pairs (r, k), (c, k). -/
theorem sum_rr {β : Type} [AddCommMonoid β] (f : (⟨2, ![M, K]⟩ : Shape).Idx → (⟨2, ![N, K]⟩ : Shape).Idx → β)
    (r : Fin M) (c : Fin N) :
    ∑ k : (rr wf).contr.Idx, f ((rr wf).lhsIdx (ix2 r c) k) ((rr wf).rhsIdx (ix2 r c) k)
      = ∑ k : Fin K, f (ix2 r k) (ix2 c k) := by
  rw [← Equiv.sum_comp (contrEquiv1 (rr wf) K rfl rfl).symm]
  refine Finset.sum_congr rfl fun k _ => ?_
  have hk := contrEquiv1_symm_val (rr wf) K rfl rfl k
  have el : (rr wf).lhsIdx (ix2 r c) ((contrEquiv1 (rr wf) K rfl rfl).symm k) = ix2 r k := funext fun a => Fin.ext (by
    match a with
    | ⟨0, _⟩ => exact rr_lhs_0 wf _ _
    | ⟨1, _⟩ => exact (rr_lhs_1 wf _ _).trans hk)
  have er : (rr wf).rhsIdx (ix2 r c) ((contrEquiv1 (rr wf) K rfl rfl).symm k) = ix2 c k := funext fun a => Fin.ext (by
    match a with
    | ⟨0, _⟩ => exact rr_rhs_0 wf _ _
    | ⟨1, _⟩ => exact (rr_rhs_1 wf _ _).trans hk)
  rw [el, er]

/-- The same for any record with those axis lists. -/
theorem sum_contr_rr {β : Type} [AddCommMonoid β] (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (f : (⟨2, ![M, K]⟩ : Shape).Idx → (⟨2, ![N, K]⟩ : Shape).Idx → β) (r : Fin M) (c : Fin N) :
    ∑ k : d.contr.Idx, f (d.lhsIdx (ix2 r c) k) (d.rhsIdx (ix2 r c) k) = ∑ k : Fin K, f (ix2 r k) (ix2 c k) := by
  obtain ⟨lc, rc', ln, rn, lb, rb, wf'⟩ := d
  simp only at hlc hrc hln hrn hlb hrb
  subst hlc hrc hln hrn hlb hrb
  exact sum_rr wf' f r c

/-! ## The product itself, at an output index -/

/-- A rows × rows block product into the zero accumulator, at (r, c): the sum over k of A (r, k) · B (c, k). -/
theorem matmul_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    matmul d prec A B (constant ⟨2, ![M, N]⟩ .f32 0x00000000#32) (ix2 r c) = ∑ k : Fin K, A (ix2 r k) * B (ix2 c k) := by
  simp only [matmul]
  rw [Ideal.matmul_constant_zero_apply]
  exact sum_contr_rr d hlc hrc hln hrn hlb hrb (fun a b => A a * B b) r c

end Cert.Lib

end
-- ==== Proof.Payload.lean ====
/-
  The kernel body's three stored values, read at an index over the extended reals.
  At the first point of each batch the body stores K = x W₁ and V = x W₂ of the whole batch block (payloads 2 and 3);
  at every point it stores, for its tile of 512 query rows, the attention result normalised after the product
  (payload 4), from the tile's rows of x, the matrix W₀, and the K and V it reads back.
-/
import proofs.«405012_j21311627722866_3_alg».proof.Proof.Gen.KernelIdeal.Skeleton
import proofs.«405012_j21311627722866_3_alg».proof.Proof.AttnSpec
import proofs.«405012_j21311627722866_3_alg».proof.Proof.LibDotSum
import proofs.«405012_j21311627722866_3_alg».proof.Proof.LibDotSumT
import proofs.«405012_j21311627722866_3_alg».proof.Proof.LibLayout
import Idealize.ShloMosaic.Lib.ValueLayout

noncomputable section

namespace Cert.KernelIdeal.Pay

open Cert.KernelIdeal Cert.KernelIdeal.Gen Idealize.ShloMosaic Idealize.ShloMosaic.ValueIdx Cert.Attn

/-- The batch block with its leading unit axis dropped, at (k, t): the block at (0, k, t). -/
private theorem pay1_apply (v31 : FVec Ideal S1x2048x768 .bf16) (k : Fin 2048) (t : Fin 768) :
    k0_pay1 (F := Ideal) v31 (ix2 k t) = v31 (ix3 (0 : Fin 1) k t) := by
  unfold k0_pay1
  exact shapeCast_1ab_ab_apply v31 _ k t

/-- A loaded [1, 768, 768] matrix with its leading unit axis dropped, at (t, j): the matrix at (0, t, j). -/
private theorem mat_apply (w : FVec Ideal S1x768x768 .bf16) (h : S1x768x768.ShapeCasts S768x768) (t j : Fin 768) :
    shapeCast S768x768 w h (ix2 t j) = w (ix3 (0 : Fin 1) t j) :=
  shapeCast_1ab_ab_apply w h t j

/-- The K projection of the batch block: entry (k, j) is row k of the block times column j of the loaded matrix. -/
theorem pay2_apply (v31 : FVec Ideal S1x2048x768 .bf16) (v33 : FVec Ideal S1x768x768 .bf16) (k : Fin 2048) (j : Fin 768) :
    k0_pay2 (F := Ideal) v31 v33 (ix2 k j)
      = proj (fun t : Fin 768 => v31 (ix3 (0 : Fin 1) k t)) (fun (t : Fin 768) (j : Fin 768) => v33 (ix3 (0 : Fin 1) t j)) j := by
  unfold k0_pay2
  -- the last cast keeps the shape, and the format change is the identity on extended reals
  refine (congrFun (shapeCast_self _ _) (ix2 k j)).trans ?_
  refine (truncf_apply (φ := .f32) (ψ := .bf16) _ _ _).trans ?_
  -- the product at (k, j) is the sum over the contracted coordinate
  refine (Cert.Lib.matmul_rc_apply dot_S2048x768_S768x768_S2048x768_1_0_0_1_n_n rfl rfl rfl rfl rfl rfl none _ _ k j).trans ?_
  unfold proj
  refine Finset.sum_congr rfl fun t _ => ?_
  exact congrArg₂ (· * ·) (pay1_apply v31 k t) (mat_apply v33 _ t j)

/-- The V projection of the batch block, likewise. -/
theorem pay3_apply (v31 : FVec Ideal S1x2048x768 .bf16) (v35 : FVec Ideal S1x768x768 .bf16) (k : Fin 2048) (j : Fin 768) :
    k0_pay3 (F := Ideal) v31 v35 (ix2 k j)
      = proj (fun t : Fin 768 => v31 (ix3 (0 : Fin 1) k t)) (fun (t : Fin 768) (j : Fin 768) => v35 (ix3 (0 : Fin 1) t j)) j := by
  unfold k0_pay3
  refine (congrFun (shapeCast_self _ _) (ix2 k j)).trans ?_
  refine (truncf_apply (φ := .f32) (ψ := .bf16) _ _ _).trans ?_
  refine (Cert.Lib.matmul_rc_apply dot_S2048x768_S768x768_S2048x768_1_0_0_1_n_n rfl rfl rfl rfl rfl rfl none _ _ k j).trans ?_
  unfold proj
  refine Finset.sum_congr rfl fun t _ => ?_
  exact congrArg₂ (· * ·) (pay1_apply v31 k t) (mat_apply v35 _ t j)

/-! ## The tile's computation, stage by stage at a literal index

The hypotheses of the shape relations are taken as variables: any two proofs of one of them are equal, so each lemma
applies to the body's terms whatever evidence they carry. -/

section Tile

variable (hr : S512x2048.Reduces [1] S512) (hφ : FKind.Formats .f32)
  (hmax : (0xFF800000#32 : BitVec 32) = FKind.maximumf.neutral .f32 hφ)
  (hadd : (0x00000000#32 : BitVec 32) = FKind.add.neutral .f32 hφ)
  (hc : S512.ShapeCasts S512x1) (hb : S512x1.Broadcasts S512x2048) (hb' : S512x1.Broadcasts S512x768)

/-- The query rows Q = x W₀ of the tile, at (r, j). -/
private theorem tile_q (v6 : FVec Ideal S1x512x768 .bf16) (v8 : FVec Ideal S1x768x768 .bf16)
    (h6 : S1x512x768.ShapeCasts S512x768) (h8 : S1x768x768.ShapeCasts S768x768) (r : Fin 512) (j : Fin 768) :
    matmul dot_S512x768_S768x768_S512x768_1_0_0_1_n_n none (shapeCast S512x768 v6 h6) (shapeCast S768x768 v8 h8)
        (constant S512x768 .f32 0x00000000#32) (ix2 r j)
      = proj (fun t : Fin 768 => v6 (ix3 (0 : Fin 1) r t)) (fun (t : Fin 768) (j : Fin 768) => v8 (ix3 (0 : Fin 1) t j)) j := by
  refine (Cert.Lib.matmul_rc_apply dot_S512x768_S768x768_S512x768_1_0_0_1_n_n rfl rfl rfl rfl rfl rfl none _ _ r j).trans ?_
  unfold proj
  refine Finset.sum_congr rfl fun t _ => ?_
  exact congrArg₂ (· * ·) (shapeCast_1ab_ab_apply v6 h6 r t) (mat_apply v8 h8 t j)

/-- The scaled scores of query row r against every key row: Q Kᵀ times 1/8, at (r, k). -/
private theorem tile_score (q : FVec Ideal S512x768 .bf16) (v12 : FVec Ideal S2048x768 .bf16) (r : Fin 512) (k : Fin 2048) :
    mulf (matmul dot_S512x768_S2048x768_S512x2048_1_1_0_0_n_n none q v12 (constant S512x2048 .f32 0x00000000#32))
        (broadcast S512x2048 (Scalar.ofBits (F := Ideal) .f32 0x3E000000#32)) (ix2 r k)
      = score (fun j : Fin 768 => q (ix2 r j)) (fun (k : Fin 2048) (j : Fin 768) => v12 (ix2 k j)) k := by
  refine (mulf_apply _ _ _).trans ?_
  unfold score
  exact congrArg₂ (· * ·)
    (Cert.Lib.matmul_rr_apply dot_S512x768_S2048x768_S512x2048_1_1_0_0_n_n rfl rfl rfl rfl rfl rfl none q v12 r k) rfl

/-- The row maximum of a score matrix, at row r. -/
private theorem tile_max (s : FVec Ideal S512x2048 .f32) (r : Fin 512) :
    multiReduction .maximumf [1] S512 s 0xFF800000#32 hr hφ hmax (ix1 r) = rowMax (fun k : Fin 2048 => s (ix2 r k)) :=
  Cert.Lib.rowMax_f32_apply s hr hφ hmax r

/-- The shifted exponentials: the row maximum, kept as a column and spread back over the row, is subtracted before
    the exponential. -/
private theorem tile_expo (s : FVec Ideal S512x2048 .f32) (r : Fin 512) (k : Fin 2048) :
    exp (subf s (broadcastTo S512x2048
          (shapeCast S512x1 (multiReduction .maximumf [1] S512 s 0xFF800000#32 hr hφ hmax) hc) hb)) (ix2 r k)
      = expo (fun k : Fin 2048 => s (ix2 r k)) k := by
  show Ideal.exp (s (ix2 r k) - broadcastTo S512x2048
          (shapeCast S512x1 (multiReduction .maximumf [1] S512 s 0xFF800000#32 hr hφ hmax) hc) hb (ix2 r k)) = _
  unfold expo
  refine congrArg (fun m => Ideal.exp (s (ix2 r k) - m)) ?_
  refine (Cert.Lib.broadcastTo_a1_ab_apply _ hb r k).trans ?_
  refine (Cert.Lib.shapeCast_a_a1_apply _ hc r 0).trans ?_
  exact tile_max hr hφ hmax s r

/-- The normaliser: the sum of the shifted exponentials of row r. -/
private theorem tile_denom (s : FVec Ideal S512x2048 .f32) (r : Fin 512) :
    multiReduction .add [1] S512
        (exp (subf s (broadcastTo S512x2048
          (shapeCast S512x1 (multiReduction .maximumf [1] S512 s 0xFF800000#32 hr hφ hmax) hc) hb)))
        0x00000000#32 hr hφ hadd (ix1 r)
      = denom (fun k : Fin 2048 => s (ix2 r k)) := by
  refine (Cert.Lib.rowSum_f32_apply _ hr hφ hadd r).trans ?_
  unfold denom
  exact Finset.sum_congr rfl fun k _ => tile_expo hr hφ hmax hc hb s r k

/-- The result of the tile from its scores: the weighted sum of the value rows, then the division by the normaliser
    (kept as a column and spread over the row), with the leading unit axis put back. -/
private theorem tile_out (s : FVec Ideal S512x2048 .f32) (v24 : FVec Ideal S2048x768 .bf16)
    (hlt : FTy.bits .bf16 < FTy.bits .f32) (ho : S512x768.ShapeCasts S1x512x768) (r : Fin 512) (c : Fin 768) :
    shapeCast S1x512x768
        (divf
          (matmul dot_S512x2048_S2048x768_S512x768_1_0_0_1_n_n none
            (truncf .bf16 (exp (subf s (broadcastTo S512x2048
              (shapeCast S512x1 (multiReduction .maximumf [1] S512 s 0xFF800000#32 hr hφ hmax) hc) hb))) hlt)
            v24 (constant S512x768 .f32 0x00000000#32))
          (broadcastTo S512x768
            (shapeCast S512x1
              (multiReduction .add [1] S512
                (exp (subf s (broadcastTo S512x2048
                  (shapeCast S512x1 (multiReduction .maximumf [1] S512 s 0xFF800000#32 hr hφ hmax) hc) hb)))
                0x00000000#32 hr hφ hadd) hc) hb'))
        ho (ix3 (0 : Fin 1) r c)
      = attnK (fun k : Fin 2048 => s (ix2 r k)) (fun (k : Fin 2048) (c : Fin 768) => v24 (ix2 k c)) c := by
  refine (shapeCast_ab_1ab_apply _ ho 0 r c).trans ?_
  refine (divf_apply _ _ _).trans ?_
  unfold attnK
  refine congrArg₂ Ideal.div ?_ ?_
  · -- the numerator: the product with the value rows, the weights read through the format change
    refine (Cert.Lib.matmul_rc_apply dot_S512x2048_S2048x768_S512x768_1_0_0_1_n_n rfl rfl rfl rfl rfl rfl none _ v24 r c).trans ?_
    refine Finset.sum_congr rfl fun k _ => ?_
    exact congrArg (· * v24 (ix2 k c)) (tile_expo hr hφ hmax hc hb s r k)
  · -- the denominator: the normaliser's column read at row r
    refine (Cert.Lib.broadcastTo_a1_ab_apply _ hb' r c).trans ?_
    refine (Cert.Lib.shapeCast_a_a1_apply _ hc r 0).trans ?_
    exact tile_denom hr hφ hmax hadd hc hb s r

end Tile

/-- The tile's result at (0, r, c): the attention row of the tile's query row r against the K and V read back,
    normalised after the product. -/
theorem pay4_apply (v6 : FVec Ideal S1x512x768 .bf16) (v8 : FVec Ideal S1x768x768 .bf16)
    (v12 : FVec Ideal S2048x768 .bf16) (v24 : FVec Ideal S2048x768 .bf16) (r : Fin 512) (c : Fin 768) :
    k0_pay4 (F := Ideal) v6 v8 v12 v24 (ix3 (0 : Fin 1) r c)
      = attnK (score (proj (fun t : Fin 768 => v6 (ix3 (0 : Fin 1) r t)) (fun (t : Fin 768) (j : Fin 768) => v8 (ix3 (0 : Fin 1) t j)))
                (fun (k : Fin 2048) (j : Fin 768) => v12 (ix2 k j)))
              (fun (k : Fin 2048) (c : Fin 768) => v24 (ix2 k c)) c := by
  unfold k0_pay4
  -- from the scores on, the body is the tile's computation
  refine (tile_out _ _ _ _ _ _ _ _ v24 _ _ r c).trans ?_
  -- and its scores are those of the projected query row against the rows read back
  refine congrArg (fun s => attnK s (fun (k : Fin 2048) (c : Fin 768) => v24 (ix2 k c)) c) (funext fun k => ?_)
  refine (tile_score _ v12 r k).trans ?_
  refine congrArg (fun q => score q (fun (k : Fin 2048) (j : Fin 768) => v12 (ix2 k j)) k) (funext fun j => ?_)
  exact tile_q v6 v8 _ _ r j

end Cert.KernelIdeal.Pay

end
-- ==== Proof.KernelValue.lean ====
/-
  The kernel's result array over the extended reals.
  By induction along the grid, after every point of batch entry b the two scratch buffers hold K_b = x_b W₁ and
  V_b = x_b W₂ (stored at the batch's first point, kept at the other three). So at every point the output block is the
  attention result of the tile's 512 query rows against K_b and V_b, normalised after the product; the 32 blocks tile
  the result array, which therefore is that function of the two arguments at every index.
-/
import proofs.«405012_j21311627722866_3_alg».proof.Proof.Blocks
import proofs.«405012_j21311627722866_3_alg».proof.Proof.Payload
import proofs.«405012_j21311627722866_3_alg».proof.Proof.Gen.KernelIdeal.Value

noncomputable section

namespace Cert.KernelIdeal.KV

open Cert.KernelIdeal Cert.KernelIdeal.Gen Cert.KernelIdeal.Pieces Cert.KernelIdeal.Blocks Cert.KernelIdeal.Pay
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

/-- The two operands as the launch finds them. -/
abbrev X (c : Dev nD) : SX.Idx → EReal := V m c main_v0
abbrev W (c : Dev nD) : SW.Idx → EReal := V m c main_v1

/-- Row k of the staged batch block at point t is row k of batch entry t / 4. -/
theorem xrow_blk (c : Dev nD) (t : Fin cfg0.N) (k : Fin 2048) :
    (fun d : Fin 768 => (iblk m c 0 t : Vec Ideal S1x2048x768 .bf16) (ix3 (0 : Fin 1) k d)) = xrow (X m c) (bOf t) k :=
  funext fun d => xblk_apply m c t 0 k d

/-- The three loaded matrices at point t are the three matrices of the weight array. -/
theorem wq_blk (c : Dev nD) (t : Fin cfg0.N) :
    (fun (d j : Fin 768) => wq (iblk m c 1 t : Vec Ideal S3x768x768 .bf16) (ix3 (0 : Fin 1) d j)) = wmat (W m c) 0 :=
  funext fun d => funext fun j => (wq_apply _ 0 d j).trans (wblk_apply m c t 0 d j)
theorem wk_blk (c : Dev nD) (t : Fin cfg0.N) :
    (fun (d j : Fin 768) => wk (iblk m c 1 t : Vec Ideal S3x768x768 .bf16) (ix3 (0 : Fin 1) d j)) = wmat (W m c) 1 :=
  funext fun d => funext fun j => (wk_apply _ 0 d j).trans (wblk_apply m c t 1 d j)
theorem wv_blk (c : Dev nD) (t : Fin cfg0.N) :
    (fun (d j : Fin 768) => wv (iblk m c 1 t : Vec Ideal S3x768x768 .bf16) (ix3 (0 : Fin 1) d j)) = wmat (W m c) 2 :=
  funext fun d => funext fun j => (wv_apply _ 0 d j).trans (wblk_apply m c t 2 d j)

/-- What the batch's first point stores: K and V of batch entry t / 4. -/
theorem payK_blk (c : Dev nD) (t : Fin cfg0.N) (k : Fin 2048) (j : Fin 768) :
    k0_pay2 (F := Ideal) (iblk m c 0 t) (wk (iblk m c 1 t)) (ix2 k j) = proj (xrow (X m c) (bOf t) k) (wmat (W m c) 1) j := by
  refine (pay2_apply _ _ k j).trans ?_
  rw [xrow_blk m c t k, wk_blk m c t]
theorem payV_blk (c : Dev nD) (t : Fin cfg0.N) (k : Fin 2048) (j : Fin 768) :
    k0_pay3 (F := Ideal) (iblk m c 0 t) (wv (iblk m c 1 t)) (ix2 k j) = proj (xrow (X m c) (bOf t) k) (wmat (W m c) 2) j := by
  refine (pay3_apply _ _ k j).trans ?_
  rw [xrow_blk m c t k, wv_blk m c t]

/-- THE SCRATCH INVARIANT: after point n both scratch buffers hold the projections of batch entry n / 4. -/
theorem scratch_eq (c : Dev nD) : ∀ (n : ℕ) (h : n < cfg0.N) (k : Fin 2048) (j : Fin 768),
    (outsAt0 m c n h).2.1 (ix2 k j) = proj (xrow (X m c) (bOf ⟨n, h⟩) k) (wmat (W m c) 1) j
    ∧ (outsAt0 m c n h).2.2 (ix2 k j) = proj (xrow (X m c) (bOf ⟨n, h⟩) k) (wmat (W m c) 2) j := by
  intro n
  induction n with
  | zero =>
    intro h k j
    have h0 : (⟨0, h⟩ : Fin cfg0.N).val % 4 = 0 := rfl
    rw [outsAt0_A m c ⟨0, h⟩ h0]
    dsimp only
    let t : Fin cfg0.N := ⟨0, h⟩
    exact ⟨(congrFun (scratchK_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)) (ix2 k j)).trans (payK_blk m c t k j),
      (congrFun (scratchV_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)) (ix2 k j)).trans (payV_blk m c t k j)⟩
  | succ n ih =>
    intro h k j
    let t : Fin cfg0.N := ⟨n + 1, h⟩
    by_cases h0 : t.val % 4 = 0
    · rw [outsAt0_A m c t h0]
      dsimp only
      exact ⟨(congrFun (scratchK_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)) (ix2 k j)).trans (payK_blk m c t k j),
        (congrFun (scratchV_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)) (ix2 k j)).trans (payV_blk m c t k j)⟩
    · rw [outsAt0_B m c t h0]
      dsimp only
      unfold sout0_B_0 sout0_B_1
      have hb : bOf (⟨n, Nat.lt_of_succ_lt h⟩ : Fin cfg0.N) = bOf t := by
        apply Fin.ext
        show n / 4 = (n + 1) / 4
        have : (n + 1) % 4 ≠ 0 := h0
        omega
      have := ih (Nat.lt_of_succ_lt h) k j
      rw [hb] at this
      exact this

/-- The same at a point of the grid. -/
theorem scratchK_at (c : Dev nD) (t : Fin cfg0.N) (k : Fin 2048) (j : Fin 768) :
    (outsAt0 m c t.val t.isLt).2.1 (ix2 k j) = proj (xrow (X m c) (bOf t) k) (wmat (W m c) 1) j :=
  (scratch_eq m c t.val t.isLt k j).1
theorem scratchV_at (c : Dev nD) (t : Fin cfg0.N) (k : Fin 2048) (j : Fin 768) :
    (outsAt0 m c t.val t.isLt).2.2 (ix2 k j) = proj (xrow (X m c) (bOf t) k) (wmat (W m c) 2) j :=
  (scratch_eq m c t.val t.isLt k j).2

/-- The tile's query row r at point t is row 512·(t mod 4) + r of batch entry t / 4. -/
theorem qrow_blk (c : Dev nD) (t : Fin cfg0.N) (r : Fin 512) :
    (fun d : Fin 768 => xtile (grid0.coords t) (iblk m c 0 t : Vec Ideal S1x2048x768 .bf16) (ix3 (0 : Fin 1) r d))
      = xrow (X m c) (bOf t) (qOf t r) :=
  funext fun d => (xtile_apply t _ 0 r d).trans (xblk_apply m c t 0 (qOf t r) d)

/-- The tile's result from scratch contents that are K and V of the point's batch entry. -/
theorem tile_eq (c : Dev nD) (t : Fin cfg0.N) (ks vs : FVec Ideal S2048x768 .bf16)
    (hk : ∀ (k : Fin 2048) (j : Fin 768), ks (ix2 k j) = proj (xrow (X m c) (bOf t) k) (wmat (W m c) 1) j)
    (hv : ∀ (k : Fin 2048) (j : Fin 768), vs (ix2 k j) = proj (xrow (X m c) (bOf t) k) (wmat (W m c) 2) j)
    (r : Fin 512) (cc : Fin 768) :
    k0_pay4 (F := Ideal) (xtile (grid0.coords t) (iblk m c 0 t)) (wq (iblk m c 1 t)) ks vs (ix3 (0 : Fin 1) r cc)
      = outK (X m c) (W m c) (bOf t) (qOf t r) cc := by
  refine (pay4_apply _ _ _ _ r cc).trans ?_
  rw [qrow_blk m c t r, wq_blk m c t,
    show (fun (k : Fin 2048) (j : Fin 768) => ks (ix2 k j)) = fun k => proj (xrow (X m c) (bOf t) k) (wmat (W m c) 1) from
      funext fun k => funext fun j => hk k j,
    show (fun (k : Fin 2048) (j : Fin 768) => vs (ix2 k j)) = fun k => proj (xrow (X m c) (bOf t) k) (wmat (W m c) 2) from
      funext fun k => funext fun j => hv k j]
  rfl

/-- WHAT POINT t LEAVES IN THE OUTPUT BLOCK: the attention result of its tile of batch entry t / 4. -/
theorem out_eq (c : Dev nD) (t : Fin cfg0.N) (r : Fin 512) (cc : Fin 768) :
    (outsAt0 m c t.val t.isLt).1 (ix3 (0 : Fin 1) r cc) = outK (X m c) (W m c) (bOf t) (qOf t r) cc := by
  by_cases h0 : t.val % 4 = 0
  · rw [outsAt0_A m c t h0]
    dsimp only
    refine (congrFun (out_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)) (ix3 (0 : Fin 1) r cc)).trans ?_
    exact tile_eq m c t _ _ (payK_blk m c t) (payV_blk m c t) r cc
  · rw [outsAt0_B m c t h0]
    dsimp only
    refine (congrFun (out_B (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk m c 0 t) (iblk m c 1 t) _ _) (ix3 (0 : Fin 1) r cc)).trans ?_
    have hlt : t.val - 1 < cfg0.N := Nat.lt_of_le_of_lt (Nat.sub_le _ _) t.isLt
    have hb : bOf (⟨t.val - 1, hlt⟩ : Fin cfg0.N) = bOf t := by
      apply Fin.ext
      show (t.val - 1) / 4 = t.val / 4
      omega
    refine tile_eq m c t _ _ (fun k j => ?_) (fun k j => ?_) r cc
    · have := (scratch_eq m c (t.val - 1) hlt k j).1; rw [hb] at this; exact this
    · have := (scratch_eq m c (t.val - 1) hlt k j).2; rw [hb] at this; exact this

/-- The whole output block at point t, as a function of the block index. -/
theorem outblk_eq (c : Dev nD) (t : Fin cfg0.N) :
    (outsAt0 m c t.val t.isLt).1
      = fun y : S1x512x768.Idx => GK (X m c) (W m c) (ix3 (bOf t) (qOf t ⟨(y 1).val, (y 1).isLt⟩) ⟨(y 2).val, (y 2).isLt⟩) := by
  funext y
  obtain ⟨z, r, cc, rfl⟩ : ∃ (z : Fin 1) (r : Fin 512) (cc : Fin 768), y = ix3 z r cc := ⟨y 0, y 1, y 2, eq_ix3 y⟩
  obtain rfl : z = 0 := Subsingleton.elim _ _
  exact out_eq m c t r cc

/-- WHAT POINT t WRITES BACK is block t of the attention function of the operands. -/
theorem flushed_eq (c : Dev nD) (t : Fin cfg0.N) :
    (dats m 0 c).flushed 2 t = ((cfg0.win 2).blk t).view.read (Elt Ideal) (GK (X m c) (W m c)) := by
  rw [Cert.KernelIdeal.Value.flushed2, outblk_eq]
  obtain ⟨-, -, -, -, -, -, e0, e1, e2⟩ := idx_facts t
  funext j
  show GK (X m c) (W m c) (ix3 (bOf t) (qOf t ⟨(j 1).val, (j 1).isLt⟩) ⟨(j 2).val, (j 2).isLt⟩)
    = GK (X m c) (W m c) (((cfg0.win 2).blk t).view.emb j)
  refine congrArg (GK (X m c) (W m c)) (funext fun a => Fin.ext ?_)
  have hj0 : (j 0).val < 1 := (j 0).isLt
  match a with
  | ⟨0, _⟩ => show t.val / 4 = win0_2.index t (0 : Fin 3) * 1 + 1 * (j 0).val; omega
  | ⟨1, _⟩ => show 512 * (t.val % 4) + (j 1).val = win0_2.index t (1 : Fin 3) * 512 + 1 * (j 1).val; omega
  | ⟨2, _⟩ => show (j 2).val = win0_2.index t (2 : Fin 3) * 768 + 1 * (j 2).val; omega

/-- An index of the array is in point t's block iff each coordinate is in the block's range on its axis. -/
theorem mem_blk (t : Fin cfg0.N) (i : S8x2048x768.Idx) :
    i ∈ ((cfg0.win 2).blk t).view.set ↔ ∀ a : Fin 3, win0_2.index t a * S1x512x768.size a ≤ (i a).val ∧ (i a).val < win0_2.index t a * S1x512x768.size a + S1x512x768.size a := by
  show i ∈ ((View.whole main_v2).slice (win0_2.rect t)).set ↔ _
  rw [View.set_slice_whole, Rect.mem_set_unit]
  exact Iff.rfl

/-- Every index of the result array lies in the block of the point (batch entry, tile) it belongs to. -/
theorem cover (i : S8x2048x768.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 768 := (i 2).isLt
  let t : Fin cfg0.N := ⟨4 * (i 0).val + (i 1).val / 512, by rw [show cfg0.N = 32 from N_0]; omega⟩
  refine ⟨t, flush0_2 t, ?_⟩
  obtain ⟨-, -, -, -, -, -, e0, e1, e2⟩ := idx_facts t
  have ht : t.val = 4 * (i 0).val + (i 1).val / 512 := rfl
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 768 ≤ (i 2).val ∧ (i 2).val < win0_2.index t (2 : Fin 3) * 768 + 768; omega

/-- THE RESULT ARRAY after the run: the attention function of the operands, at every index. -/
theorem final (c : Dev nD) : (dats m 0 c).arrAt 2 cfg0.N = GK (X m c) (W m c) :=
  (dats m 0 c).arrAt_eq_of_cover 2 (GK (X m c) (W m c)) (fun t _ => flushed_eq m c t) cover

/-- The run, read: the result array at the attention function of the two ARGUMENTS (the format changes in front of
    the launch are the identity), the arguments unchanged. -/
theorem run : θ_run defs (onTc (τ := τ) (main (F := Ideal))) ⟨m, fun _ => 0, ρ⟩ fun r => ∀ c : Dev nD,
      r.2.mem ((c : Thread nD τ).loc main_v2) = GK (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by
      show GK (V m c main_v0) (V m c main_v1) = _
      rw [V_v0 m c, V_v1 m c])), (h c).2⟩)
    (Cert.KernelIdeal.Value.run_blocks m ρ)

end Cert.KernelIdeal.KV

end
-- ==== Proof.lean ====
/-
  A fused attention kernel against its jnp reference, over the extended reals.

  Both programs take x : f32[8, 2048, 768] and a weight triple W : f32[3, 768, 768] and, for every batch entry, form
  Q = x W₀, K = x W₁, V = x W₂, the scores s = Q Kᵀ / 8, the row-wise shifted exponentials e = exp (s − max s) and their
  sums l. The reference normalises the weights and then takes the weighted sum of the value rows, Σ_k (e_k / l) V_k; the
  kernel takes the weighted sum first and divides afterwards, (Σ_k e_k V_k) / l. Its grid has one point per batch
  entry and tile of 512 query rows; K and V of a batch entry are computed at the entry's first point into two scratch
  buffers that the entry's other three points read.

  The two results are equal because, for finite inputs, every quantity above is a real number and l is a positive real,
  so that division by l distributes over the finite sum. The precondition (all inputs finite) is what makes them real.

  The three frame claims are the generated frame certificates (the reference's from its generated run); the
  idealization rewrote nothing, so `preserves` is trivial; `algebraic` sets the kernel's run (its result array read
  block by block, through the scratch invariant) beside the reference's run (read operation by operation).
-/
import proofs.«405012_j21311627722866_3_alg».proof.Defs
import proofs.«405012_j21311627722866_3_alg».proof.Proof.Gen.Kernel
import proofs.«405012_j21311627722866_3_alg».proof.Proof.Gen.Kernel.Frame
import proofs.«405012_j21311627722866_3_alg».proof.Proof.Gen.KernelIdeal
import proofs.«405012_j21311627722866_3_alg».proof.Proof.Gen.KernelIdeal.Frame
import proofs.«405012_j21311627722866_3_alg».proof.Proof.Gen.KernelIdeal.Value
import proofs.«405012_j21311627722866_3_alg».proof.Proof.Gen.ReferenceIdeal
import proofs.«405012_j21311627722866_3_alg».proof.Proof.Gen.ReferenceIdeal.Run
import proofs.«405012_j21311627722866_3_alg».proof.Proof.Gen.ReferenceIdeal.Read
import proofs.«405012_j21311627722866_3_alg».proof.Proof.Gen.Pre_finite_inputs
import proofs.«405012_j21311627722866_3_alg».proof.Proof.AttnSpec
import proofs.«405012_j21311627722866_3_alg».proof.Proof.AttnLaw
import proofs.«405012_j21311627722866_3_alg».proof.Proof.Finite
import proofs.«405012_j21311627722866_3_alg».proof.Proof.RefValue
import proofs.«405012_j21311627722866_3_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the attention function that normalises after the product, the reference's at the
    one that normalises the weights first, of arguments that agree; on finite inputs the two are one function. -/
theorem algebraic : Cert.algebraic_KernelIdeal_ReferenceIdeal := by
  intro m ρ m' ρ' hpre hagree
  refine ⟨fun c => Cert.Attn.GK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.ref_eq, (hagree c).1, (hagree c).2]
  obtain ⟨h0, h1⟩ := Cert.Finite.real_of_pre _ _ (hpre c)
  exact (Cert.Attn.GK_eq_GR _ _ h0 h1).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
